-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 7
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x128, .f32⟩
  | .hbm, ⟨6, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S128x128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Pieces.lean ====
/-
  What the kernel body leaves in its output block and in the scratch it carries between grid points, per control case,
  as the body's payloads of the blocks it loaded.

  The body has two cases. At the grid's first point it first stores the projection (features times transposed weight)
  into the scratch, whole; then, at every point, it stores the aggregation payload of the adjacency block, of the
  scratch as it then stands and of the bias row into the output block, whole. Each store covers its buffer, so what
  the buffer holds afterwards is that one store's payload, and each load reads a whole staging buffer.
-/
import proofs.«158075_g7507602833631_cont_9to1_m_1148_23_alg».proof.Proof.Gen.KernelIdeal.Value
import Idealize.ShloMosaic.Lib.Pipeline.Value
import Idealize.ShloMosaic.Lib.ValueIdx
import Idealize.ShloMosaic.Lib.Tactic

set_option maxRecDepth 16384

noncomputable section

namespace Cert.KernelIdeal.Layer

open Cert.KernelIdeal Cert.KernelIdeal.Gen Idealize.ShloMosaic Idealize.ShloMosaic.TcCoe Idealize.ShloMosaic.Tactic Idealize.SL.Sem
open Idealize.ShloMosaic.ValueIdx
open Idealize.ShloMosaic.Pipeline (Dat)

variable {F : FTy → Type} [FloatOps F]

theorem hz : (![0, 0] : Fin 2 → Nat) = fun _ => 0 := funext fun a => by fin_cases a <;> rfl

/-- At the grid's first point the body leaves in the carried scratch the projection payload of the feature block and
    the transposed-weight block it loaded: one covering store, its loads reading the whole staging buffers. -/
theorem scratch_first (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S400x128 .f32) (h5 : a5.IsWhole)
    (a6 : Memref sig .tc .vmem S10000x128 .bf16) (h6 : a6.IsWhole) (hc : cond0_0 i)
    (x0 : Vec F S400x10000 .f32) (x1 : Vec F S10000x128 .f32) (x2 : Vec F S128x128 .f32) (x3 : Vec F S1x128 .f32) :
    sout0_A_0 c i a1 h1 a2 h2 a3 h3 a4 h4 a5 h5 a6 h6 hc x0 x1 x2 x3 = k0_pay1 x1 x2 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero hz]
  simp only [View.readAt_eq_ld, h2.read_unread, h3.read_unread, View.ld_unit_zero (S := S10000x128) hz,
    View.ld_unit_zero (S := S128x128) hz]

/-- At the first point the output block is the aggregation payload of the adjacency block, of the projection just
    stored (read back from the scratch) and of the bias row. -/
theorem out_first (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S400x128 .f32) (h5 : a5.IsWhole)
    (a6 : Memref sig .tc .vmem S10000x128 .bf16) (h6 : a6.IsWhole) (hc : cond0_0 i)
    (x0 : Vec F S400x10000 .f32) (x1 : Vec F S10000x128 .f32) (x2 : Vec F S128x128 .f32) (x3 : Vec F S1x128 .f32) :
    out0_A_4 c i a1 h1 a2 h2 a3 h3 a4 h4 a5 h5 a6 h6 hc x0 x1 x2 x3 = k0_pay2 x0 (k0_pay1 x1 x2) x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S400x10000) hz, View.ld_unit_zero (S := S10000x128) hz,
    View.ld_unit_zero (S := S128x128) hz, View.ld_unit_zero (S := S1x128) hz,
    View.readCov_unit_zero (S := S10000x128) _ hz]

/-- At a later point the output block is the aggregation payload of the adjacency block, of what the scratch held
    when the point began and of the bias row. -/
theorem out_later (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S400x128 .f32) (h5 : a5.IsWhole)
    (a6 : Memref sig .tc .vmem S10000x128 .bf16) (h6 : a6.IsWhole) (hc : ¬cond0_0 i)
    (x0 : Vec F S400x10000 .f32) (x1 : Vec F S10000x128 .f32) (x2 : Vec F S128x128 .f32) (x3 : Vec F S1x128 .f32)
    (xs : Vec F S10000x128 .bf16) :
    out0_B_4 c i a1 h1 a2 h2 a3 h3 a4 h4 a5 h5 a6 h6 hc x0 x1 x2 x3 xs = k0_pay2 x0 xs x3 := by
  unfold out0_B_4
  rw [View.read_writes_eq_canon _ _ _ (cover0_B_4 c i a1 h1 a2 h2 a3 h3 a4 h4 a5 h5 a6 h6 hc x0 x1 x2 x3 xs)]
  unfold kernelRun0_B
  dsimp only
  sl_unfold_words
  rw [View.canon_unit_zero hz]
  simp only [View.readAt_eq_ld, h1.read_unread, h4.read_unread, h6.read_unread,
    View.ld_unit_zero (S := S400x10000) hz, View.ld_unit_zero (S := S10000x128) hz,
    View.ld_unit_zero (S := S1x128) hz]

end Cert.KernelIdeal.Layer

end
-- ==== Proof.Carried.lean ====
/-
  The scratch the kernel carries between grid points holds the projection after every point, and so every point's
  output block is the aggregation payload of that point's adjacency block, the projection and the bias row.

  The pipeline hands the body whole arrays for the features, the transposed weight and the bias row (their one block
  is the array, at every point) and rows 400 t to 400 t + 399 of the adjacency array at point t. Only the first point
  stores into the scratch, and it stores the projection payload of the whole feature and transposed-weight arrays;
  later points leave the scratch as they found it: by induction on the point the scratch holds that projection after
  every point.
-/
import proofs.«158075_g7507602833631_cont_9to1_m_1148_23_alg».proof.Proof.Pieces

set_option maxRecDepth 16384

noncomputable section

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-! ## The arrays as the region finds them, and the blocks the body is handed -/

/-- The adjacency array. -/
abbrev adjArr (c : Dev nD) : Vec F S10000x10000 .f32 := V m c main_arg1
/-- The node features. -/
abbrev featArr (c : Dev nD) : Vec F S10000x128 .f32 := V m c main_arg0
/-- The transposed weight, which the host wrote before the region. -/
abbrev wtArr (c : Dev nD) : Vec F S128x128 .f32 := V m c main_v0
/-- The bias as a one-row array, which the host wrote before the region. -/
abbrev biasRow (c : Dev nD) : Vec F S1x128 .f32 := V m c main_v1

/-- The adjacency block of point t. -/
abbrev adjBlk (c : Dev nD) (t : Fin cfg0.N) : Vec F S400x10000 .f32 := iblk m c 0 t
/-- The feature block of point t. -/
abbrev featBlk (c : Dev nD) (t : Fin cfg0.N) : Vec F S10000x128 .f32 := iblk m c 1 t
/-- The transposed-weight block of point t. -/
abbrev wtBlk (c : Dev nD) (t : Fin cfg0.N) : Vec F S128x128 .f32 := iblk m c 2 t
/-- The bias block of point t. -/
abbrev biasBlk (c : Dev nD) (t : Fin cfg0.N) : Vec F S1x128 .f32 := iblk m c 3 t

/-- The block indices over the grid: the adjacency window and the output window move down one block of rows per
    point, the other three windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The feature block is the whole feature array, at every point. -/
theorem featBlk_eq (c : Dev nD) (t : Fin cfg0.N) : featBlk m c t = featArr m c := by
  obtain ⟨-, -, e0, e1, -⟩ := idx_facts t
  funext y
  show V m c main_arg0 (((cfg0.win 1).blk t).view.emb y) = V m c main_arg0 y
  refine congrArg _ (funext fun a => Fin.ext ?_)
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The transposed-weight block is the whole array, at every point. -/
theorem wtBlk_eq (c : Dev nD) (t : Fin cfg0.N) : wtBlk m c t = wtArr m c := by
  obtain ⟨-, -, -, -, e0, e1, -⟩ := idx_facts t
  funext y
  show V m c main_v0 (((cfg0.win 2).blk t).view.emb y) = V m c main_v0 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias block is the whole one-row array, at every point. -/
theorem biasBlk_eq (c : Dev nD) (t : Fin cfg0.N) : biasBlk m c t = biasRow m c := by
  obtain ⟨-, -, -, -, -, -, e0, e1, -⟩ := idx_facts t
  funext y
  show V m c main_v1 (((cfg0.win 3).blk t).view.emb y) = V m c main_v1 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The adjacency block of point t at (p, j) is the adjacency array at (400 t + p, j). -/
theorem adjBlk_apply (c : Dev nD) (t : Fin cfg0.N) (p : Fin 400) (j : Fin 10000) (r : Fin 10000)
    (hr : r.val = 400 * t.val + p.val) : adjBlk m c t (ix2 p j) = adjArr m c (ix2 r j) := by
  obtain ⟨e0, e1, -⟩ := idx_facts t
  show V m c main_arg1 (((cfg0.win 0).blk t).view.emb (ix2 p j)) = V m c main_arg1 (ix2 r j)
  refine congrArg _ (funext fun a => Fin.ext ?_)
  match a with
  | ⟨0, _⟩ => show win0_0.index t (0 : Fin 2) * 400 + 1 * p.val = r.val; omega
  | ⟨1, _⟩ => show win0_0.index t (1 : Fin 2) * 10000 + 1 * j.val = j.val; omega

/-! ## The scratch after every point, and every point's output block -/

/-- The projection payload of the whole feature and transposed-weight arrays: what the scratch holds. -/
abbrev projArr (c : Dev nD) : Vec F S10000x128 .bf16 := k0_pay1 (featArr m c) (wtArr m c)

/-- After every point the carried scratch holds the projection: the first point stores it, the later ones keep it. -/
theorem scratch_eq (c : Dev nD) : ∀ (n : ℕ) (hn : n < cfg0.N), (outsAt0 m c n hn).2 = projArr m c
  | 0, hn => by
    rw [outsAt0_A m c ⟨0, hn⟩ rfl]
    dsimp only
    refine (scratch_first c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) (ms0_4 ⟨0, hn⟩) (hs0_4 ⟨0, hn⟩) scM0_0
      (Memref.isWhole_whole _) ((hcond0_0 ⟨0, hn⟩).mpr rfl) (adjBlk m c ⟨0, hn⟩) (featBlk m c ⟨0, hn⟩)
      (wtBlk m c ⟨0, hn⟩) (biasBlk m c ⟨0, hn⟩)).trans ?_
    rw [featBlk_eq, wtBlk_eq]
  | n + 1, hn => by
    have hN : cfg0.N = 25 := N_0
    have hB : ¬(⟨n + 1, hn⟩ : Fin cfg0.N).val % 25 = 0 := by dsimp only; omega
    rw [outsAt0_B m c ⟨n + 1, hn⟩ hB]
    dsimp only
    unfold sout0_B_0
    exact scratch_eq c n _

/-- Every point's output block is the aggregation payload of its adjacency block, the projection and the bias row. -/
theorem out_eq (c : Dev nD) (t : Fin cfg0.N) :
    (outsAt0 m c t.val t.isLt).1 = k0_pay2 (adjBlk m c t) (projArr m c) (biasRow m c) := by
  by_cases h0 : t.val % 25 = 0
  · rw [outsAt0_A m c t h0]
    dsimp only
    refine (out_first c (grid0.coords t) (ms0_0 t) (hs0_0 t) (ms0_1 t) (hs0_1 t) (ms0_2 t) (hs0_2 t) (ms0_3 t) (hs0_3 t)
      (ms0_4 t) (hs0_4 t) scM0_0 (Memref.isWhole_whole _) ((hcond0_0 t).mpr h0) (adjBlk m c t) (featBlk m c t)
      (wtBlk m c t) (biasBlk m c t)).trans ?_
    rw [featBlk_eq, wtBlk_eq, biasBlk_eq]
  · rw [outsAt0_B m c t h0]
    dsimp only
    refine (out_later c (grid0.coords t) (ms0_0 t) (hs0_0 t) (ms0_1 t) (hs0_1 t) (ms0_2 t) (hs0_2 t) (ms0_3 t) (hs0_3 t)
      (ms0_4 t) (hs0_4 t) scM0_0 (Memref.isWhole_whole _) (fun h => h0 ((hcond0_0 t).mp h)) (adjBlk m c t) (featBlk m c t)
      (wtBlk m c t) (biasBlk m c t) (outsAt0 m c (t.val - 1) (Nat.lt_of_le_of_lt (Nat.sub_le _ _) t.isLt)).2).trans ?_
    rw [scratch_eq m c (t.val - 1) _, biasBlk_eq]

end Cert.KernelIdeal.Layer

end
-- ==== Proof.Payload.lean ====
/-
  The two payloads of the kernel body read at one index, on the extended reals.

  The projection payload (a matrix product into a zero accumulator, then a narrowing that is the identity on the
  extended reals) at (j, l) is the sum over k of x[j,k] w[k,l]. The aggregation payload at (p, q) is
  max(Σ_j a[p,j] y[j,q] + b[0,q], 0): the product of the adjacency block with the scratch contents into a zero
  accumulator, plus the bias row broadcast over the block's rows, clamped below at zero.
-/
import proofs.«158075_g7507602833631_cont_9to1_m_1148_23_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Layer

open Cert.KernelIdeal Cert.KernelIdeal.Gen Idealize.ShloMosaic Idealize.ShloMosaic.ValueIdx

/-! ## The operand indices of the two matrix products, coordinate by coordinate -/

theorem lhs_proj_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_proj_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_proj_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_proj_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem lhs_agg_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_agg_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_agg_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_agg_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-! ## The payloads at an index -/

/-- The projection payload at (j, l): the sum over k of x[j,k] w[k,l]. -/
theorem proj_payload (x : Vec Ideal S10000x128 .f32) (w : Vec Ideal S128x128 .f32) (j : Fin 10000) (l : Fin 128) :
    k0_pay1 (F := Ideal) x w (ix2 j l) = ∑ k : Fin 128, x (ix2 j k) * w (ix2 k l) := by
  unfold k0_pay1
  simp only [shapeCast_self]
  rw [truncf_apply]
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 j l) ((contrEquiv1 dot_S10000x128_S128x128_S10000x128_1_0_0_1_n_n 128 rfl rfl).symm k) = ix2 j k := funext fun a => Fin.ext (by
    match a with
    | ⟨0, _⟩ => exact lhs_proj_0 _ _
    | ⟨1, _⟩ => exact (lhs_proj_1 _ _).trans hk)
  have er : dot_S10000x128_S128x128_S10000x128_1_0_0_1_n_n.rhsIdx (ix2 j l) ((contrEquiv1 dot_S10000x128_S128x128_S10000x128_1_0_0_1_n_n 128 rfl rfl).symm k) = ix2 k l := funext fun a => Fin.ext (by
    match a with
    | ⟨0, _⟩ => exact (rhs_proj_0 _ _).trans hk
    | ⟨1, _⟩ => exact rhs_proj_1 _ _)
  rw [el, er]

/-- The bias row broadcast over the rows of the block reads row 0 of it at every row. -/
theorem bias_bcast (v : Vec Ideal S1x128 .f32) (p : Fin 400) (q : Fin 128) :
    broadcastTo S400x128 v broadcasts_S1x128_S400x128 (ix2 p q) = v (ix2 (0 : Fin 1) q) :=
  broadcastTo_apply v broadcasts_S1x128_S400x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The aggregation payload at (p, q): max(Σ_j a[p,j] y[j,q] + b[0,q], 0). -/
theorem agg_payload (a : Vec Ideal S400x10000 .f32) (y : Vec Ideal S10000x128 .bf16) (b : Vec Ideal S1x128 .f32)
    (p : Fin 400) (q : Fin 128) :
    k0_pay2 (F := Ideal) a y b (ix2 p q) = max ((∑ j : Fin 10000, a (ix2 p j) * y (ix2 j q)) + b (ix2 (0 : Fin 1) q)) 0 := by
  unfold k0_pay2
  simp only [shapeCast_self]
  rw [maximumf_apply, addf_apply, broadcast_apply, bias_bcast]
  show max _ (Ideal.ofBits .f32 0x00000000#32) = _
  rw [Ideal.ofBits_zero_f32]
  simp only [matmul]
  rw [Ideal.matmul_constant_zero_apply, ← Equiv.sum_comp (contrEquiv1 dot_S400x10000_S10000x128_S400x128_1_0_0_1_n_n 10000 rfl rfl).symm]
  refine congrArg (fun s => max (s + b (ix2 (0 : Fin 1) q)) 0) (Finset.sum_congr rfl fun k _ => ?_)
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]
  rfl

end Cert.KernelIdeal.Layer

end
-- ==== Proof.Spec.lean ====
/-
  The graph-convolution layer as a function of its four arrays, in the two orders of multiplication the two programs
  use, and the law that joins them.

  With A the 10000 x 10000 adjacency array, X the 10000 x 128 node features, W the 128 x 128 weight (row l of W is
  output feature l) and b the bias, the layer is max(A X Wᵀ + b, 0). Projecting first, entry (r, l) is
  max(Σ_j A[r,j] (Σ_k X[j,k] W[l,k]) + b[l], 0); aggregating first it is
  max(Σ_k (Σ_j A[r,j] X[j,k]) W[l,k] + b[l], 0). On real numbers the two double sums agree (distributivity and a
  swap of the two summations); on the extended reals distributivity fails at the infinities, so the law is stated for
  arrays all of whose entries are real.
-/
import Idealize.ShloMosaic.PureOps.Ideal
import Idealize.ShloMosaic.Lib.ValueIdx

noncomputable section

open scoped BigOperators

namespace Cert.GraphConv

open Idealize.ShloMosaic Idealize.ShloMosaic.ValueIdx

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Matrix multiplication is associative on real entries: Σ_j a_j (Σ_k x_jk w_k) = Σ_k (Σ_j a_j x_jk) w_k for one
    row a, a matrix x and one column w, all of real entries, read in the extended reals. -/
theorem reassoc {J K : Type*} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ j, a j * ∑ k, x j k * w k = ∑ k, (∑ j, a j * x j k) * w k := by
  choose a' ha using ha
  choose x' hx using hx
  choose w' hw using hw
  simp only [ha, hx, hw, ← EReal.coe_mul, ← coe_sum]
  refine congrArg _ ?_
  simp only [Finset.mul_sum, Finset.sum_mul]
  rw [Finset.sum_comm]
  exact Finset.sum_congr rfl fun k _ => Finset.sum_congr rfl fun j _ => by ring

/-- An array all of whose entries are real numbers. -/
def AllReal {s : Shape} (v : s.Idx → EReal) : Prop := ∀ i, ∃ r : ℝ, v i = r

/-- The projection X Wᵀ at (j, l): Σ_k X[j,k] W[l,k]. -/
def proj (X : (⟨2, ![10000, 128]⟩ : Shape).Idx → EReal) (W : (⟨2, ![128, 128]⟩ : Shape).Idx → EReal)
    (j : Fin 10000) (l : Fin 128) : EReal :=
  ∑ k : Fin 128, X (ix2 j k) * W (ix2 l k)

/-- The layer with the projection taken first: max(A (X Wᵀ) + b, 0). -/
def layer (X : (⟨2, ![10000, 128]⟩ : Shape).Idx → EReal) (A : (⟨2, ![10000, 10000]⟩ : Shape).Idx → EReal)
    (W : (⟨2, ![128, 128]⟩ : Shape).Idx → EReal) (b : (⟨1, ![128]⟩ : Shape).Idx → EReal) :
    (⟨2, ![10000, 128]⟩ : Shape).Idx → EReal :=
  fun i => max ((∑ j : Fin 10000, A (ix2 (i 0) j) * proj X W j (i 1)) + b (ix1 (i 1))) 0

/-- The layer with the aggregation taken first: max((A X) Wᵀ + b, 0). -/
def layerAgg (X : (⟨2, ![10000, 128]⟩ : Shape).Idx → EReal) (A : (⟨2, ![10000, 10000]⟩ : Shape).Idx → EReal)
    (W : (⟨2, ![128, 128]⟩ : Shape).Idx → EReal) (b : (⟨1, ![128]⟩ : Shape).Idx → EReal) :
    (⟨2, ![10000, 128]⟩ : Shape).Idx → EReal :=
  fun i => max ((∑ k : Fin 128, (∑ j : Fin 10000, A (ix2 (i 0) j) * X (ix2 j k)) * W (ix2 (i 1) k)) + b (ix1 (i 1))) 0

/-- On arrays of real entries the two orders give the same layer. -/
theorem layerAgg_eq_layer (X : (⟨2, ![10000, 128]⟩ : Shape).Idx → EReal) (A : (⟨2, ![10000, 10000]⟩ : Shape).Idx → EReal)
    (W : (⟨2, ![128, 128]⟩ : Shape).Idx → EReal) (b : (⟨1, ![128]⟩ : Shape).Idx → EReal)
    (hX : AllReal X) (hA : AllReal A) (hW : AllReal W) :
    layerAgg X A W b = layer X A W b := by
  funext i
  unfold layerAgg layer proj
  rw [reassoc (fun j => A (ix2 (i 0) j)) (fun j k => X (ix2 j k)) (fun k => W (ix2 (i 1) k))
    (fun j => hA _) (fun j k => hX _) (fun k => hW _)]

end Cert.GraphConv

end
-- ==== Proof.KernelValue.lean ====
/-
  The kernel's result array is the layer with the projection taken first.

  The host writes the transposed weight and the one-row bias before the region, so the projection the scratch holds is
  Σ_k X[j,k] W[l,k] at (j, l) and the bias row reads b[q] at column q. Point t's output block at (p, q) is then
  max(Σ_j A[400 t + p, j] (Σ_k X[j,k] W[q,k]) + b[q], 0): block t of the layer. The twenty-five blocks of 400 rows
  tile the 10000 rows, so the array after the run is the layer.
-/
import proofs.«158075_g7507602833631_cont_9to1_m_1148_23_alg».proof.Proof.Carried
import proofs.«158075_g7507602833631_cont_9to1_m_1148_23_alg».proof.Proof.Payload
import proofs.«158075_g7507602833631_cont_9to1_m_1148_23_alg».proof.Proof.Spec
import Idealize.ShloMosaic.Lib.StableHlo.Run

set_option maxRecDepth 16384

noncomputable section

namespace Cert.KernelIdeal.Layer

open Cert.KernelIdeal Cert.KernelIdeal.Gen Idealize.ShloMosaic Idealize.ShloMosaic.TcCoe Idealize.SL.Sem
open Idealize.ShloMosaic.ValueIdx Idealize.ShloMosaic.StableHlo Cert.GraphConv
open Idealize.ShloMosaic.Pipeline (Dat)

variable (m : (ℓ : Loc nD τ sig) → Buf (Elt Ideal) ℓ) (ρ : Dev nD → PrngReg)

/-! ## The arrays the host wrote before the region -/

/-- The transposed weight at (k, l) is the weight at (l, k). -/
theorem wtArr_apply (c : Dev nD) (k l : Fin 128) :
    wtArr m c (ix2 k l) = m ((c : Thread nD τ).loc main_arg2) (ix2 l k) := by
  have e : (V m c main_v0 : S128x128.Idx → EReal)
      = transpose S128x128 [1, 0] (m ((c : Thread nD τ).loc main_arg2)) transposes_S128x128_S128x128_1_0 := by
    dsimp only [Gen.V, Gen.hostOps0]; after_results
  show (V m c main_v0 : S128x128.Idx → EReal) (ix2 k l) = _
  rw [e]
  exact transpose_apply [1, 0] _ transposes_S128x128_S128x128_1_0 (ix2 k l) (ix2 l k) (fun b => match b with
    | ⟨0, _⟩ => rfl
    | ⟨1, _⟩ => rfl)

/-- The one-row bias at (0, q) is the bias at q. -/
theorem biasRow_apply (c : Dev nD) (q : Fin 128) :
    biasRow m c (ix2 (0 : Fin 1) q) = m ((c : Thread nD τ).loc main_arg3) (ix1 q) := by
  have e : (V m c main_v1 : S1x128.Idx → EReal)
      = shapeCast S1x128 (m ((c : Thread nD τ).loc main_arg3)) shapeCasts_S128_S1x128 := by
    dsimp only [Gen.V, Gen.hostOps0]; after_results; rfl
  show (V m c main_v1 : S1x128.Idx → EReal) (ix2 (0 : Fin 1) q) = _
  rw [e]
  refine shapeCast_apply _ shapeCasts_S128_S1x128 (ix2 (0 : Fin 1) q) (ix1 q) ?_
  rw [Shape.rowMajor_val_one, Shape.rowMajor_val_two]
  show q.val = 0 * 128 + q.val
  omega

/-! ## One entry of a point's output block -/

/-- The layer of the launch contents of the four arguments. -/
abbrev layerOf (c : Dev nD) : S10000x128.Idx → EReal :=
  layer (m ((c : Thread nD τ).loc main_arg0)) (m ((c : Thread nD τ).loc main_arg1)) (m ((c : Thread nD τ).loc main_arg2))
    (m ((c : Thread nD τ).loc main_arg3))

/-- The aggregation payload of a block whose row p is row r of A, of the projection of X and a transposed W, and of a
    one-row bias, at (p, q), is the layer at (r, q). -/
theorem entry_eq (a : Vec Ideal S400x10000 .f32) (X : S10000x128.Idx → EReal) (Wt : S128x128.Idx → EReal)
    (brow : S1x128.Idx → EReal) (A : S10000x10000.Idx → EReal) (W : S128x128.Idx → EReal) (b : S128.Idx → EReal)
    (p : Fin 400) (q : Fin 128) (r : Fin 10000) (ha : ∀ j : Fin 10000, a (ix2 p j) = A (ix2 r j))
    (hw : ∀ k l : Fin 128, Wt (ix2 k l) = W (ix2 l k)) (hb : brow (ix2 (0 : Fin 1) q) = b (ix1 q)) :
    k0_pay2 (F := Ideal) a (k0_pay1 (F := Ideal) X Wt) brow (ix2 p q) = layer X A W b (ix2 r q) := by
  rw [agg_payload, hb]
  unfold layer proj
  show max ((∑ j : Fin 10000, a (ix2 p j) * k0_pay1 (F := Ideal) X Wt (ix2 j q)) + b (ix1 q)) 0
    = max ((∑ j : Fin 10000, A (ix2 r j) * ∑ k : Fin 128, X (ix2 j k) * W (ix2 q k)) + b (ix1 q)) 0
  refine congrArg (fun s => max (s + b (ix1 q)) 0) (Finset.sum_congr rfl fun j _ => ?_)
  rw [ha, proj_payload]
  refine congrArg _ (Finset.sum_congr rfl fun k _ => ?_)
  rw [hw]

/-- Entry (p, q) of point t's output block is entry (400 t + p, q) of the layer. -/
theorem block_entry (c : Dev nD) (t : Fin cfg0.N) (p : Fin 400) (q : Fin 128) (r : Fin 10000)
    (hr : r.val = 400 * t.val + p.val) :
    k0_pay2 (adjBlk m c t) (projArr m c) (biasRow m c) (ix2 p q) = layerOf m c (ix2 r q) :=
  (entry_eq (adjBlk m c t) (featArr m c) (wtArr m c) (biasRow m c) (m ((c : Thread nD τ).loc main_arg1))
    (m ((c : Thread nD τ).loc main_arg2)) (m ((c : Thread nD τ).loc main_arg3)) p q r
    (fun j => (adjBlk_apply m c t p j r hr).trans (congrFun (V_main_arg1 m c) _)) (wtArr_apply m c)
    (biasRow_apply m c q)).trans
    (congrArg (fun X => layer X (m ((c : Thread nD τ).loc main_arg1)) (m ((c : Thread nD τ).loc main_arg2))
      (m ((c : Thread nD τ).loc main_arg3)) (ix2 r q)) (V_main_arg0 m c))

/-! ## From the blocks to the array -/

/-- What point t writes back is block t of the layer. -/
theorem flushed_eq (c : Dev nD) (t : Fin cfg0.N) :
    (dats m 0 c).flushed 4 t = ((cfg0.win 4).blk t).view.read (Elt Ideal) (layerOf m c) := by
  rw [Value.flushed4, out_eq]
  obtain ⟨-, -, -, -, -, -, -, -, e0, e1⟩ := idx_facts t
  have hN : cfg0.N = 25 := N_0
  funext y
  obtain ⟨p, q, rfl⟩ : ∃ (p : Fin 400) (q : Fin 128), y = ix2 p q := ⟨y 0, y 1, eq_ix2 y⟩
  have hr : 400 * t.val + p.val < 10000 := by have := t.isLt; have := p.isLt; omega
  show k0_pay2 (adjBlk m c t) (projArr m c) (biasRow m c) (ix2 p q)
    = layerOf m c (((cfg0.win 4).blk t).view.emb (ix2 p q))
  have he : ((cfg0.win 4).blk t).view.emb (ix2 p q) = ix2 (⟨400 * t.val + p.val, hr⟩ : Fin 10000) q :=
    funext fun a => Fin.ext (by
      match a with
      | ⟨0, _⟩ => show win0_4.index t (0 : Fin 2) * 400 + 1 * p.val = 400 * t.val + p.val; omega
      | ⟨1, _⟩ => show win0_4.index t (1 : Fin 2) * 128 + 1 * q.val = q.val; omega)
  rw [he]
  exact block_entry m c t p q ⟨400 * t.val + p.val, hr⟩ rfl

/-- An index of the result array is in point t's block iff each coordinate is in the block's range on its axis. -/
theorem mem_blk (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v2).slice (win0_4.rect t)).set ↔ _
  rw [View.set_slice_whole, Rect.mem_set_unit]
  exact Iff.rfl

/-- Every index of the result array is in the block of the point its row falls in: row r is in block r / 400. -/
theorem covered (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  have ht : (i 0).val / 400 < cfg0.N := by omega
  obtain ⟨-, -, -, -, -, -, -, -, e0, e1⟩ := idx_facts ⟨(i 0).val / 400, ht⟩
  have e0' : win0_4.index ⟨(i 0).val / 400, ht⟩ (0 : Fin 2) = (i 0).val / 400 := e0
  refine ⟨⟨(i 0).val / 400, ht⟩, flush0_4 _, ?_⟩
  rw [mem_blk]
  intro a
  match a with
  | ⟨0, _⟩ =>
    show win0_4.index ⟨(i 0).val / 400, ht⟩ (0 : Fin 2) * 400 ≤ (i 0).val
      ∧ (i 0).val < win0_4.index ⟨(i 0).val / 400, ht⟩ (0 : Fin 2) * 400 + 400
    omega
  | ⟨1, _⟩ =>
    show win0_4.index ⟨(i 0).val / 400, ht⟩ (1 : Fin 2) * 128 ≤ (i 1).val
      ∧ (i 1).val < win0_4.index ⟨(i 0).val / 400, ht⟩ (1 : Fin 2) * 128 + 128
    omega

/-- The result array after the run is the layer. -/
theorem final (c : Dev nD) : (dats m 0 c).arrAt 4 cfg0.N = layerOf m c :=
  (dats m 0 c).arrAt_eq_of_cover 4 (layerOf m c) (fun t _ => flushed_eq m c t) covered

/-- The run, read: the result array at the layer of the launch contents, the arguments unchanged. -/
theorem run : θ_run defs (onTc (τ := τ) (main (F := Ideal))) ⟨m, fun _ => 0, ρ⟩ fun r => ∀ c : Dev nD,
      r.2.mem ((c : Thread nD τ).loc main_v2) = layerOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Layer

end
-- ==== Proof.RefValue.lean ====
/-
  The reference program's result is the layer with the aggregation taken first.

  The reference multiplies the adjacency array by the features, multiplies the result by the transposed weight, adds the
  bias broadcast over the rows and clamps below at zero. Read one operation at a time at an index (i0, i1), with the
  transpose read as W[i1,k] and the two broadcasts as b[i1], that is
  max(Σ_k (Σ_j A[i0,j] X[j,k]) W[i1,k] + b[i1], 0).
-/
import proofs.«158075_g7507602833631_cont_9to1_m_1148_23_alg».proof.Proof.Gen.ReferenceIdeal.Read
import proofs.«158075_g7507602833631_cont_9to1_m_1148_23_alg».proof.Proof.Spec

noncomputable section

namespace Cert.ReferenceIdeal.Layer

open Cert.ReferenceIdeal Cert.ReferenceIdeal.Read Idealize.ShloMosaic Idealize.ShloMosaic.ValueIdx Cert.GraphConv

/-- The reference's result array, as a function of its four argument arrays, is the layer aggregated first. -/
theorem ref_eq_layerAgg (X : (⟨S10000x128, .f32⟩ : BufTy).Contents (Elt Ideal)) (A : (⟨S10000x10000, .f32⟩ : BufTy).Contents (Elt Ideal))
    (W : (⟨S128x128, .f32⟩ : BufTy).Contents (Elt Ideal)) (b : (⟨S128, .f32⟩ : BufTy).Contents (Elt Ideal)) :
    val_main_v6 (F := Ideal) X A W b = layerAgg X A W b := by
  funext i
  have e1 : ∀ (k : Fin 128) (j : Fin 10000), lidx_main_v0 (lidx_main_v2 i k) j = ix2 (i 0) j := fun k j =>
    funext fun a => by match a with | ⟨0, _⟩ => rfl | ⟨1, _⟩ => rfl
  have e2 : ∀ (k : Fin 128) (j : Fin 10000), ridx_main_v0 (lidx_main_v2 i k) j = ix2 j k := fun k j =>
    funext fun a => by match a with | ⟨0, _⟩ => rfl | ⟨1, _⟩ => rfl
  have e3 : ∀ k : Fin 128, idx_main_v1 (ridx_main_v2 i k) = ix2 (i 1) k := fun k =>
    funext fun a => by match a with | ⟨0, _⟩ => rfl | ⟨1, _⟩ => rfl
  have e4 : idx_main_v3 (idx_main_v4 i) = ix1 (i 1) :=
    funext fun a => by match a with | ⟨0, _⟩ => rfl
  rw [val_main_v6_apply, val_main_v5_apply, val_main_v2_apply, val_main_v4_apply, val_main_v3_apply,
    val_main_call0_v0_apply, val_main_call0_cst_apply]
  simp only [val_main_v0_apply, val_main_v1_apply, e1, e2, e3, e4, Ideal.maximumf_def, Ideal.addf_def, Ideal.ofBits_def,
    Ideal.ofBits_zero_f32]
  rfl

end Cert.ReferenceIdeal.Layer

end
-- ==== Proof.Finite.lean ====
/-
  The precondition makes every entry of the feature, adjacency and weight arrays a real number.

  The precondition is the conjunction, over the four arguments, of "every entry's absolute value is below +∞". An
  extended real whose absolute value max(x, -x) is strictly below +∞ is neither infinity, so it is a real.
-/
import proofs.«158075_g7507602833631_cont_9to1_m_1148_23_alg».proof.Pre_finite_inputs
import proofs.«158075_g7507602833631_cont_9to1_m_1148_23_alg».proof.Proof.Spec
import Idealize.ShloMosaic.Lib.ReduceAll
import Idealize.ShloMosaic.Lib.ValueIdx

noncomputable section

namespace Cert.Pre_finite_inputs.Finite

open Idealize.ShloMosaic Cert.GraphConv Cert.Pre_finite_inputs Cert.Pre_finite_inputs.Facts

variable [Cert.Pre_finite_inputs.Facts]

/-- The scalar shape has one index. -/
instance subsingleton_scalar : Subsingleton S_.Idx := ⟨fun a b => funext fun d => d.elim0⟩

/-- An extended real whose absolute value compares below the pattern of +∞ is a real number. -/
theorem real_of_lt_inf (x : EReal)
    (h : FloatOps.cmpf (F := Ideal) (φ := .f32) .olt (FloatOps.hostAbsf (F := Ideal) (φ := .f32) x)
      (Ideal.ofBits .f32 0x7F800000#32) = 1#1) : ∃ r : ℝ, x = r := by
  have htop : Ideal.ofBits .f32 0x7F800000#32 = ⊤ := by simp [Ideal.ofBits, Ideal.ieee]
  rw [htop] at h
  change Ideal.cmp .olt (max x (-x)) ⊤ = 1#1 at h
  unfold Ideal.cmp at h
  induction x using EReal.rec with
  | bot => simp at h
  | top => simp at h
  | coe r => exact ⟨r, rfl⟩

/-- Under the precondition the features, the adjacency array and the weight have real entries. -/
theorem allReal_of_pre (X : FVec Ideal S10000x128 .f32) (A : FVec Ideal S10000x10000 .f32) (W : FVec Ideal S128x128 .f32)
    (b : FVec Ideal S128 .f32) (h : fn (F := Ideal) X A W b = fun _ => 1#1) :
    AllReal X ∧ AllReal A ∧ AllReal W := by
  have h0 := congrFun h ValueIdx.ix0
  dsimp only [fn, fn_part1] at h0
  obtain ⟨h012, -⟩ := IntOp.andi_eq_one.1 h0
  obtain ⟨h01, hW⟩ := IntOp.andi_eq_one.1 h012
  obtain ⟨hX, hA⟩ := IntOp.andi_eq_one.1 h01
  refine ⟨fun i => ?_, fun i => ?_, fun i => ?_⟩
  · exact real_of_lt_inf (X i) (Host.reduce_andi_all _ _ _ _ _ hX i)
  · exact real_of_lt_inf (A i) (Host.reduce_andi_all _ _ _ _ _ hA i)
  · exact real_of_lt_inf (W i) (Host.reduce_andi_all _ _ _ _ _ hW i)

end Cert.Pre_finite_inputs.Finite

end
-- ==== Proof.lean ====
/-
  A graph-convolution layer, max(A X Wᵀ + b, 0), computed in two orders of multiplication.

  The kernel projects first: at the first of its twenty-five grid points it forms X Wᵀ (10000 x 128) and keeps it in a
  scratch buffer for the rest of the run; at every point it multiplies a block of 400 rows of the adjacency array A by
  that projection, adds the bias row and clamps below at zero. The reference aggregates first: (A X) Wᵀ + b, clamped.
  On the extended reals the narrowing to sixteen bits the kernel applies to A and to the projection is the identity, so
  entry (r, l) of the kernel's result is max(Σ_j A[r,j] (Σ_k X[j,k] W[l,k]) + b[l], 0) and of the reference's
  max(Σ_k (Σ_j A[r,j] X[j,k]) W[l,k] + b[l], 0). The two double sums agree when A, X and W have real entries
  (distributivity and a swap of the summations, which fail at the infinities): the precondition, every entry finite,
  gives exactly that. The three frames are the generated runs; the idealization rewrote nothing.
-/
import proofs.«158075_g7507602833631_cont_9to1_m_1148_23_alg».proof.Defs
import proofs.«158075_g7507602833631_cont_9to1_m_1148_23_alg».proof.Proof.Gen.Kernel
import proofs.«158075_g7507602833631_cont_9to1_m_1148_23_alg».proof.Proof.Gen.Kernel.Skeleton
import proofs.«158075_g7507602833631_cont_9to1_m_1148_23_alg».proof.Proof.Gen.Kernel.Launch
import proofs.«158075_g7507602833631_cont_9to1_m_1148_23_alg».proof.Proof.Gen.Kernel.Points
import proofs.«158075_g7507602833631_cont_9to1_m_1148_23_alg».proof.Proof.Gen.Kernel.Frame
import proofs.«158075_g7507602833631_cont_9to1_m_1148_23_alg».proof.Proof.Gen.KernelIdeal
import proofs.«158075_g7507602833631_cont_9to1_m_1148_23_alg».proof.Proof.Gen.KernelIdeal.Skeleton
import proofs.«158075_g7507602833631_cont_9to1_m_1148_23_alg».proof.Proof.Gen.KernelIdeal.Launch
import proofs.«158075_g7507602833631_cont_9to1_m_1148_23_alg».proof.Proof.Gen.KernelIdeal.Points
import proofs.«158075_g7507602833631_cont_9to1_m_1148_23_alg».proof.Proof.Gen.KernelIdeal.Frame
import proofs.«158075_g7507602833631_cont_9to1_m_1148_23_alg».proof.Proof.Gen.ReferenceIdeal
import proofs.«158075_g7507602833631_cont_9to1_m_1148_23_alg».proof.Proof.Gen.Pre_finite_inputs
import proofs.«158075_g7507602833631_cont_9to1_m_1148_23_alg».proof.Proof.Gen.KernelIdeal.Value
import proofs.«158075_g7507602833631_cont_9to1_m_1148_23_alg».proof.Proof.Gen.ReferenceIdeal.Run
import proofs.«158075_g7507602833631_cont_9to1_m_1148_23_alg».proof.Proof.Gen.ReferenceIdeal.Read
import proofs.«158075_g7507602833631_cont_9to1_m_1148_23_alg».proof.Proof.KernelValue
import proofs.«158075_g7507602833631_cont_9to1_m_1148_23_alg».proof.Proof.RefValue
import proofs.«158075_g7507602833631_cont_9to1_m_1148_23_alg».proof.Proof.Finite
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the layer: the kernel's result array is the layer with the projection first, the reference's
    the layer with the aggregation first, and on arguments of real entries, which the precondition gives, the two are
    one function. -/
theorem algebraic : Cert.algebraic_KernelIdeal_ReferenceIdeal := by
  intro m ρ m' ρ' hpre hagree
  refine ⟨fun c => Cert.KernelIdeal.Layer.layerOf m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Layer.ref_eq_layerAgg, (hagree c).1, (hagree c).2.1,
    (hagree c).2.2.1, (hagree c).2.2.2]
  obtain ⟨hX, hA, hW⟩ := Cert.Pre_finite_inputs.Finite.allReal_of_pre _ _ _ _ (hpre c)
  exact Cert.GraphConv.layerAgg_eq_layer _ _ _ _ hX hA hW

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
